-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S2x1600000 32) (main_arg2 : FVec F S256x64 .f32) (main_arg3 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000x64 : Shape := ⟨2, ![100000, 64]⟩
abbrev S2000x256 : Shape := ⟨2, ![2000, 256]⟩
abbrev S2000x64 : Shape := ⟨2, ![2000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 63
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x256_S256x64_S2000x64_1_0_0_1_n_n_wf : DotDims.WF S2000x256 S256x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S100000x1, .f32⟩
  | .hbm, ⟨77, _⟩ => ⟨S100000x64, .f32⟩
  | .hbm, ⟨78, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The function both programs compute, one entry at a time, on the extended reals.

  The dense transform: entry (r, q) of x·W is the sum over the 256 input channels k of x(r, k) · W(k, q).
  A row's log-softmax over its 64 output channels: with M the row's maximum (taken from −∞) the entry at channel q is
  (z q − M) − log (Σ_j exp (z j − M)). No algebraic law is used on either: both programs evaluate exactly these
  expressions, so the two sides meet term by term, and no finiteness of the inputs is needed.
-/
import Idealize.ShloMosaic.PureOps.Ideal
import Idealize.ShloMosaic.Lib.ValueIdx

noncomputable section

open scoped BigOperators

namespace Cert.Proof.Gcn

open Idealize.ShloMosaic Idealize.ShloMosaic.ValueIdx

/-- Entry (r, q) of the dense transform x·W: the sum over the input channels. -/
def lin (x : (⟨2, ![100000, 256]⟩ : Shape).Idx → EReal) (w : (⟨2, ![256, 64]⟩ : Shape).Idx → EReal)
    (r : Fin 100000) (q : Fin 64) : EReal :=
  ∑ k : Fin 256, x (ix2 r k) * w (ix2 k q)

/-- The dense transform as an array. -/
def linArr (x : (⟨2, ![100000, 256]⟩ : Shape).Idx → EReal) (w : (⟨2, ![256, 64]⟩ : Shape).Idx → EReal) :
    (⟨2, ![100000, 64]⟩ : Shape).Idx → EReal :=
  fun i => lin x w (i 0) (i 1)

/-- A row's maximum over its 64 channels, taken from −∞ (the word 0xFF800000). -/
def rowMax (z : Fin 64 → EReal) : EReal :=
  (Finset.univ : Finset (Fin 64)).fold max (Ideal.ofBits .f32 0xFF800000#32) z

/-- The log-softmax of one row at channel q: shift by the maximum, subtract the log of the sum of exponentials. -/
def logSoftmaxRow (z : Fin 64 → EReal) (q : Fin 64) : EReal :=
  (z q - rowMax z) - Ideal.log (∑ j : Fin 64, Ideal.exp (z j - rowMax z))

/-- Bias given as a [1, 64] row, then log-softmax along the rows, of an aggregated [100000, 64] array: entry (r, q). -/
def rowsLogSoftmax (agg : (⟨2, ![100000, 64]⟩ : Shape).Idx → EReal) (b2 : (⟨2, ![1, 64]⟩ : Shape).Idx → EReal) :
    (⟨2, ![100000, 64]⟩ : Shape).Idx → EReal :=
  fun i => logSoftmaxRow (fun j => agg (ix2 (i 0 : Fin 100000) j) + b2 (ix2 (0 : Fin 1) j)) (i 1)

/-- Bias, then log-softmax along the rows, of an aggregated [100000, 64] array: entry (r, q). -/
def biasLogSoftmax (agg : (⟨2, ![100000, 64]⟩ : Shape).Idx → EReal) (b : (⟨1, ![64]⟩ : Shape).Idx → EReal) :
    (⟨2, ![100000, 64]⟩ : Shape).Idx → EReal :=
  fun i => logSoftmaxRow (fun j => agg (ix2 (i 0 : Fin 100000) j) + b (ix1 j)) (i 1)

end Cert.Proof.Gcn

end
-- ==== Proof.LinRegion.lean ====
/-
  The first kernel region: the dense transform, fifty row blocks of 2000 rows.

  At grid point t the body loads rows 2000·t … 2000·t + 1999 of x and the whole of W, multiplies them into a zero
  accumulator and stores the [2000, 64] product: entry (p, q) of the stored block is Σ_k x(2000·t + p, k) · W(k, q)
  (the change of format before the product is the identity on the extended reals). Row r of the result array lies in
  block r / 2000, the fifty blocks tile the array, so after the region the array holds x·W entry by entry — whatever
  the contents `V` the region is entered with, read at its two input arrays.
-/
import proofs.«138163_j64372969832703_1_alg».proof.Proof.Gen.KernelIdeal.Frame
import proofs.«138163_j64372969832703_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LinRegion

open Cert.KernelIdeal Cert.KernelIdeal.Gen Cert.Proof.Gcn
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block product at one entry -/

theorem lhs_axis0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_axis1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_axis0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_axis1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Entry (p, q) of the block the body stores: the sum over the 256 input channels of the loaded rows times W. -/
theorem blockProduct_apply (x0 : Vec Ideal S2000x256 .f32) (x1 : Vec Ideal S256x64 .f32) (p : Fin 2000) (q : Fin 64) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_axis0 _ _).trans hk
    | ⟨1, _⟩ => exact rhs_axis1 _ _)
  simp only [truncf_apply]
  rw [el, er]

/-! ## From the fifty blocks to the array -/

variable (V : (c : Dev nD) → (b : Ref sig .tc) → Buf (Elt Ideal) ((c : Thread nD τ).loc b))

/-- The index maps, decided over the grid: the x window and the result window sit at block row t, the W window at its
    one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The dense transform of the two arrays the region reads, as the region finds them. -/
abbrev product (c : Dev nD) : S100000x64.Idx → EReal :=
  linArr (V c main_arg0 : S100000x256.Idx → EReal) (V c main_arg2 : S256x64.Idx → EReal)

/-- Row p of the x block at point t is row 2000·t + p of x. -/
theorem xblock_apply (c : Dev nD) (t : Fin cfg0.N) (p : Fin 2000) (k : Fin 256) (r : Fin 100000) (hr : r.val = t.val * 2000 + p.val) :
    (iblk0 V c 0 t : Vec Ideal S2000x256 .f32) (ix2 p k) = (V c main_arg0 : S100000x256.Idx → EReal) (ix2 r k) := by
  obtain ⟨e0, e1, -, -, -, -⟩ := index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The W block at every point is W. -/
theorem wblock_apply (c : Dev nD) (t : Fin cfg0.N) (k : Fin 256) (q : Fin 64) :
    (iblk0 V c 1 t : Vec Ideal S256x64 .f32) (ix2 k q) = (V c main_arg2 : S256x64.Idx → EReal) (ix2 k q) := by
  obtain ⟨-, -, e2, e3, -, -⟩ := index_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- What point t writes back is block t of the dense transform. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x64) hz]
  obtain ⟨-, -, -, -, e4, e5⟩ := index_facts t
  funext j
  obtain ⟨p, q, rfl⟩ : ∃ (p : Fin 2000) (q : Fin 64), j = ix2 p q := ⟨j 0, j 1, eq_ix2 j⟩
  have ht : t.val < 50 := lt_of_lt_of_eq t.isLt N_0
  have hemb : ((cfg0.win 2).blk t).view.emb (ix2 p q) = ix2 (⟨t.val * 2000 + p.val, by have := p.isLt; omega⟩ : Fin 100000) q :=
    funext fun a => Fin.ext (by
      match a with
      | ⟨0, _⟩ => show win0_2.index t (0 : Fin 2) * 2000 + 1 * p.val = t.val * 2000 + p.val; omega
      | ⟨1, _⟩ => show win0_2.index t (1 : Fin 2) * 64 + 1 * q.val = q.val; omega)
  show k0_pay1 (F := Ideal) (iblk0 V c 0 t) (iblk0 V c 1 t) (ix2 p q) = product V c (((cfg0.win 2).blk t).view.emb (ix2 p q))
  rw [hemb, blockProduct_apply]
  simp only [product, linArr, lin]
  refine Finset.sum_congr rfl fun k _ => ?_
  rw [xblock_apply V c t p k ⟨t.val * 2000 + p.val, by have := p.isLt; omega⟩ rfl, wblock_apply V c t k q]

/-- An index of the result array is in point t's block iff each coordinate is in the block's range. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every entry of the result array is written back by the point of its row block. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 2000, lt_of_lt_of_eq (show (i 0).val / 2000 < 50 by omega) N_0.symm⟩
  obtain ⟨-, -, -, -, e4, e5⟩ := index_facts t
  have e4' : win0_2.index t (0 : Fin 2) = (i 0).val / 2000 := e4
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region the result array holds the dense transform of the two arrays the region read. -/
theorem result_eq (c : Dev nD) : (dat0 V c).arrAt 2 cfg0.N = product V c :=
  (dat0 V c).arrAt_eq_of_cover 2 (product V c) (fun t _ => flushed_eq V c t) covered

end Cert.KernelIdeal.LinRegion

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.SoftmaxRegion.lean ====
/-
  The second kernel region: bias and log-softmax along the rows, fifty row blocks of 2000 rows.

  At grid point t the body loads rows 2000·t … 2000·t + 1999 of the aggregated array and the one bias row, adds the
  bias to every row, takes each row's maximum M over its 64 channels (from −∞), shifts the row by M, and subtracts the
  log of the row's sum of exponentials: entry (p, q) of the stored block is
  (z q − M) − log Σ_j exp (z j − M) with z j = agg(2000·t + p, j) + bias(0, j). Each entry depends on its own row
  only, the fifty blocks tile the array, so after the region the result array holds the log-softmax of every row of
  agg + bias — whatever the contents `V` the region is entered with, read at its two input arrays.
-/
import proofs.«138163_j64372969832703_1_alg».proof.Proof.Gen.KernelIdeal.Frame
import proofs.«138163_j64372969832703_1_alg».proof.Proof.Spec
import proofs.«138163_j64372969832703_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.SoftmaxRegion

open Cert.KernelIdeal Cert.KernelIdeal.Gen Cert.Proof.Gcn Cert.Proof.Column
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block's log-softmax at one entry -/

/-- The reduced index p with lane k put back is (p, k). -/
theorem lift_row (h : S2000x64.Reduces [1] S2000) (p : Fin 2000) (k : Fin (S2000x64.size 1)) :
    h.lift (ix1 p) k = ix2 p (⟨k.val, k.isLt⟩ : Fin 64) := by
  funext c; apply Fin.ext; fin_cases c <;> rfl

/-- The lane maximum of a [2000, 64] block, from −∞, at row p is that row's maximum. -/
theorem laneMax_apply (v : FVec Ideal S2000x64 .f32) (h : S2000x64.Reduces [1] S2000) (hφ : FKind.Formats .f32)
    (hacc : (0xFF800000#32 : BitVec 32) = FKind.maximumf.neutral .f32 hφ) (p : Fin 2000) :
    multiReduction .maximumf [1] S2000 v 0xFF800000#32 h hφ hacc (ix1 p) = rowMax (fun j => v (ix2 p j)) := by
  rw [Ideal.multiReduction_maximumf_single]
  unfold rowMax
  have hf : (v ∘ h.lift (ix1 p)) = fun k : Fin 64 => v (ix2 p k) := funext fun k => congrArg v (lift_row h p k)
  exact congrArg (fun f => Finset.fold max (Ideal.ofBits .f32 0xFF800000#32) f (Finset.univ : Finset (Fin 64))) hf

/-- The lane sum of a [2000, 64] block, from zero, at row p is that row's sum. -/
theorem laneSum_apply (v : FVec Ideal S2000x64 .f32) (h : S2000x64.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ j : Fin 64, v (ix2 p j) := by
  rw [Ideal.multiReduction_add_single]
  show ∑ k : Fin 64, v (h.lift (ix1 p) k) = _
  exact Finset.sum_congr rfl fun k _ => congrArg v (lift_row h p k)

/-- The exponential and the logarithm of a block, entry by entry. -/
theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl

/-- A block whose rows are shifted by their maxima and then by the log of their sums of exponentials, at one entry. -/
theorem logSoftmaxBlock_of (z : FVec Ideal S2000x64 .f32) (h : S2000x64.Reduces [1] S2000) (hφ : FKind.Formats .f32)
    (hmax : (0xFF800000#32 : BitVec 32) = FKind.maximumf.neutral .f32 hφ) (hadd : (0x00000000#32 : BitVec 32) = FKind.add.neutral .f32 hφ)
    (hsc : S2000.ShapeCasts S2000x1) (hbc : S2000x1.Broadcasts S2000x64) (p : Fin 2000) (q : Fin 64) :
    (subf (subf z (broadcastTo S2000x64 (shapeCast S2000x1 (multiReduction .maximumf [1] S2000 z 0xFF800000#32 h hφ hmax) hsc) hbc))
      (broadcastTo S2000x64 (log (shapeCast S2000x1 (multiReduction .add [1] S2000 (exp (subf z (broadcastTo S2000x64 (shapeCast S2000x1 (multiReduction .maximumf [1] S2000 z 0xFF800000#32 h hφ hmax) hsc) hbc))) 0x00000000#32 h hφ hadd) hsc)) hbc) : FVec Ideal S2000x64 .f32) (ix2 p q)
    = logSoftmaxRow (fun j => z (ix2 p j)) q := by
  simp only [subf_apply, exp_at, log_at, broadcastTo_a1_ab_apply, shapeCast_a_a1_apply, logSoftmaxRow]
  rw [laneSum_apply]
  simp only [subf_apply, exp_at, broadcastTo_a1_ab_apply, shapeCast_a_a1_apply]
  rw [laneMax_apply z h hφ hmax p]

/-- Entry (p, q) of the block the body stores: the log-softmax of row p of the loaded block plus the bias row, at channel q. -/
theorem softmaxBlock_apply (x0 : Vec Ideal S2000x64 .f32) (x1 : Vec Ideal S1x64 .f32) (p : Fin 2000) (q : Fin 64) :
    k1_pay1 (F := Ideal) x0 x1 (ix2 p q) = logSoftmaxRow (fun j => x0 (ix2 p j) + x1 (ix2 (0 : Fin 1) j)) q := by
  unfold k1_pay1
  simp only [shapeCast_self]
  have hb : ∀ (j : Fin 64), (addf x0 (broadcastTo S2000x64 x1 broadcasts_S1x64_S2000x64) : FVec Ideal S2000x64 .f32) (ix2 p j) = x0 (ix2 p j) + x1 (ix2 (0 : Fin 1) j) :=
    fun j => by rw [addf_apply, broadcastTo_1b_ab_apply]
  rw [show (fun j => x0 (ix2 p j) + x1 (ix2 (0 : Fin 1) j)) = fun j => (addf x0 (broadcastTo S2000x64 x1 broadcasts_S1x64_S2000x64) : FVec Ideal S2000x64 .f32) (ix2 p j) from funext fun j => (hb j).symm]
  generalize (addf x0 (broadcastTo S2000x64 x1 broadcasts_S1x64_S2000x64) : FVec Ideal S2000x64 .f32) = z
  exact logSoftmaxBlock_of z _ _ _ _ _ _ p q

/-! ## From the fifty blocks to the array -/

variable (V : (c : Dev nD) → (b : Ref sig .tc) → Buf (Elt Ideal) ((c : Thread nD τ).loc b))

/-- The index maps, decided over the grid: the aggregated window and the result window sit at block row t, the bias
    window at its one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r, channel q of the result: the log-softmax of row r of the aggregated array plus the bias row, as the
    region finds the two arrays. -/
abbrev result (c : Dev nD) : S100000x64.Idx → EReal :=
  rowsLogSoftmax (V c main_v43 : S100000x64.Idx → EReal) (V c main_v44 : S1x64.Idx → EReal)

/-- Row p of the aggregated block at point t is row 2000·t + p of the aggregated array. -/
theorem aggblock_apply (c : Dev nD) (t : Fin cfg1.N) (p : Fin 2000) (j : Fin 64) (r : Fin 100000) (hr : r.val = t.val * 2000 + p.val) :
    (iblk1 V c 0 t : Vec Ideal S2000x64 .f32) (ix2 p j) = (V c main_v43 : S100000x64.Idx → EReal) (ix2 r j) := by
  obtain ⟨e0, e1, -, -, -, -⟩ := index_facts t
  show V c main_v43 (((cfg1.win 0).blk t).view.emb (ix2 p j)) = V c main_v43 (ix2 r j)
  refine congrArg (V c main_v43) (funext fun a => Fin.ext ?_)
  match a with
  | ⟨0, _⟩ => show win1_0.index t (0 : Fin 2) * 2000 + 1 * p.val = r.val; omega
  | ⟨1, _⟩ => show win1_0.index t (1 : Fin 2) * 64 + 1 * j.val = j.val; omega

/-- The bias block at every point is the bias row. -/
theorem biasblock_apply (c : Dev nD) (t : Fin cfg1.N) (j : Fin 64) :
    (iblk1 V c 1 t : Vec Ideal S1x64 .f32) (ix2 (0 : Fin 1) j) = (V c main_v44 : S1x64.Idx → EReal) (ix2 (0 : Fin 1) j) := by
  obtain ⟨-, -, e2, e3, -, -⟩ := index_facts t
  show V c main_v44 (((cfg1.win 1).blk t).view.emb (ix2 (0 : Fin 1) j)) = V c main_v44 (ix2 (0 : Fin 1) j)
  refine congrArg (V c main_v44) (funext fun a => Fin.ext ?_)
  match a with
  | ⟨0, _⟩ => show win1_1.index t (0 : Fin 2) * 1 + 1 * 0 = 0; omega
  | ⟨1, _⟩ => show win1_1.index t (1 : Fin 2) * 64 + 1 * j.val = j.val; omega

/-- What point t writes back is block t of the rows' log-softmax. -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨-, -, -, -, e4, e5⟩ := index_facts t
  funext j
  obtain ⟨p, q, rfl⟩ : ∃ (p : Fin 2000) (q : Fin 64), j = ix2 p q := ⟨j 0, j 1, eq_ix2 j⟩
  have ht : t.val < 50 := lt_of_lt_of_eq t.isLt N_1
  have hemb : ((cfg1.win 2).blk t).view.emb (ix2 p q) = ix2 (⟨t.val * 2000 + p.val, by have := p.isLt; omega⟩ : Fin 100000) q :=
    funext fun a => Fin.ext (by
      match a with
      | ⟨0, _⟩ => show win1_2.index t (0 : Fin 2) * 2000 + 1 * p.val = t.val * 2000 + p.val; omega
      | ⟨1, _⟩ => show win1_2.index t (1 : Fin 2) * 64 + 1 * q.val = q.val; omega)
  show k1_pay1 (F := Ideal) (iblk1 V c 0 t) (iblk1 V c 1 t) (ix2 p q) = result V c (((cfg1.win 2).blk t).view.emb (ix2 p q))
  rw [hemb, softmaxBlock_apply]
  simp only [result, rowsLogSoftmax]
  refine congrArg (fun z => logSoftmaxRow z q) (funext fun j => ?_)
  rw [aggblock_apply V c t p j ⟨t.val * 2000 + p.val, by have := p.isLt; omega⟩ rfl, biasblock_apply V c t j]

/-- An index of the result array is in point t's block iff each coordinate is in the block's range. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v45).slice (win1_2.rect t)).set ↔ _
  rw [View.set_slice_whole, Rect.mem_set_unit]
  exact Iff.rfl

/-- Every entry of the result array is written back by the point of its row block. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 2000, lt_of_lt_of_eq (show (i 0).val / 2000 < 50 by omega) N_1.symm⟩
  obtain ⟨-, -, -, -, e4, e5⟩ := index_facts t
  have e4' : win1_2.index t (0 : Fin 2) = (i 0).val / 2000 := e4
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the region the result array holds the rows' log-softmax of the two arrays the region read. -/
theorem result_eq (c : Dev nD) : (dat1 V c).arrAt 2 cfg1.N = result V c :=
  (dat1 V c).arrAt_eq_of_cover 2 (result V c) (fun t _ => flushed_eq V c t) covered

end Cert.KernelIdeal.SoftmaxRegion

end
-- ==== Proof.Middle.lean ====
/-
  The host operations between the two kernel regions.

  Between the dense transform and the bias/log-softmax region the program builds, from the edge list alone, the
  message sources and targets (each edge's endpoint followed by the 100000 self loops), the in-degrees (a scatter-add of
  ones), their inverse square roots where the degree is positive, the per-message normalisation (the product of the two
  gathered factors), and then gathers the transformed rows by source, scales them and scatter-adds them by target.
  The reference applies the same operations in the same order to its own dense transform. So each buffer the
  second region reads is the reference's stage function of the arguments, provided the first region's result is the
  reference's dense transform: stated here stretch by stretch, for any contents the stretch starts from, the
  earlier stretches' results entering as hypotheses.
-/
import proofs.«138163_j64372969832703_1_alg».proof.Proof.Gen.KernelIdeal.Frame
import proofs.«138163_j64372969832703_1_alg».proof.Proof.RefRead
import Idealize.ShloMosaic.Lib.StableHlo.Run

set_option maxRecDepth 16384

noncomputable section

namespace Cert.KernelIdeal.Middle

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]

/-- The three operations of the inlined `where`, written over the buffers themselves. -/
abbrev whereOps : List (HloOp τ sig (Elt F)) :=
  [ StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The typed form of those operations is this list: each type equation is `rfl`. -/
theorem whereOps_eq : (hostOps1_1 : List (HloOp τ sig (Elt F))) = whereOps := rfl

section Stretch1
variable (A : Valuation τ sig (Elt F))

/-- After the first stretch: the message sources. -/
theorem sources : after hostOps1 A (Proc.devRef .tc main_v4) = val_main_v3 (F := F) (A (Proc.devRef .tc main_arg1)) := by
  simp only [hostOps1]
  after_results
  rfl

/-- After the first stretch: the message targets. -/
theorem targets : after hostOps1 A (Proc.devRef .tc main_v7) = val_main_v6 (F := F) (A (Proc.devRef .tc main_arg1)) := by
  simp only [hostOps1]
  after_results
  rfl

/-- After the first stretch: where the in-degree is positive. -/
theorem degreePositive : after hostOps1 A (Proc.devRef .tc main_v13) = val_main_v12 (F := F) (A (Proc.devRef .tc main_arg1)) := by
  simp only [hostOps1]
  after_results
  rfl

/-- After the first stretch: the in-degrees' inverse square roots. -/
theorem degreeRsqrt : after hostOps1 A (Proc.devRef .tc main_v14) = val_main_v13 (F := F) (A (Proc.devRef .tc main_arg1)) := by
  simp only [hostOps1]
  after_results
  rfl

/-- After the first stretch: the zero the `where` falls back to. -/
theorem whereZero : after hostOps1 A (Proc.devRef .tc main_cst_2) = val_main_cst_2 (F := F) := by
  simp only [hostOps1]
  after_results
  rfl

/-- The first stretch writes neither the first region's result nor the bias. -/
theorem keeps1_v0 : after hostOps1 A (Proc.devRef .tc main_v0) = A (Proc.devRef .tc main_v0) := by
  simp only [hostOps1]
  after_results
theorem keeps1_arg3 : after hostOps1 A (Proc.devRef .tc main_arg3) = A (Proc.devRef .tc main_arg3) := by
  simp only [hostOps1]
  after_results

end Stretch1

section Stretch2
variable (B : Valuation τ sig (Elt F)) (e : (⟨S2x1600000, .i32⟩ : BufTy).Contents (Elt F))

/-- After the `where`: the inverse square roots of the positive in-degrees, zero elsewhere. -/
theorem degreeInvSqrt (h13 : B (Proc.devRef .tc main_v13) = val_main_v12 (F := F) e)
    (h14 : B (Proc.devRef .tc main_v14) = val_main_v13 (F := F) e) (hz : B (Proc.devRef .tc main_cst_2) = val_main_cst_2 (F := F)) :
    after whereOps B (Proc.devRef .tc main_v15) = val_main_v14 (F := F) e := by
  simp only [whereOps]
  after_results
  rw [h13, h14, hz]
  rfl

/-- The `where` writes only its own three buffers. -/
theorem keeps2_v4 : after whereOps B (Proc.devRef .tc main_v4) = B (Proc.devRef .tc main_v4) := by
  simp only [whereOps]
  after_results
theorem keeps2_v7 : after whereOps B (Proc.devRef .tc main_v7) = B (Proc.devRef .tc main_v7) := by
  simp only [whereOps]
  after_results
theorem keeps2_v0 : after whereOps B (Proc.devRef .tc main_v0) = B (Proc.devRef .tc main_v0) := by
  simp only [whereOps]
  after_results
theorem keeps2_arg3 : after whereOps B (Proc.devRef .tc main_arg3) = B (Proc.devRef .tc main_arg3) := by
  simp only [whereOps]
  after_results

end Stretch2

section Stretch3
variable (C : Valuation τ sig (Elt F)) (x0 : (⟨S100000x256, .f32⟩ : BufTy).Contents (Elt F))
  (x1 : (⟨S2x1600000, .i32⟩ : BufTy).Contents (Elt F)) (x2 : (⟨S256x64, .f32⟩ : BufTy).Contents (Elt F))

set_option maxHeartbeats 4000000 in
/-- After the last stretch: the normalised messages scatter-added by target — the reference's aggregate, when the
    buffers the stretch reads hold the reference's sources, targets, inverse square roots and dense transform. -/
theorem aggregated (h4 : C (Proc.devRef .tc main_v4) = val_main_v3 (F := F) x1) (h7 : C (Proc.devRef .tc main_v7) = val_main_v6 (F := F) x1)
    (h15 : C (Proc.devRef .tc main_v15) = val_main_v14 (F := F) x1) (h0 : C (Proc.devRef .tc main_v0) = val_main_v30 (F := F) x0 x2) :
    after hostOps1_2 C (Proc.devRef .tc main_v43) = val_main_v43 (F := F) x0 x1 x2 := by
  simp only [hostOps1_2]
  after_results_simp
  rw [h4, h7, h15, h0]
  rfl

/-- After the last stretch: the bias as a [1, 64] row. -/
theorem biasRow : after hostOps1_2 C (Proc.devRef .tc main_v44)
    = shapeCast S1x64 (C (Proc.devRef .tc main_arg3) : (⟨S64, .f32⟩ : BufTy).Contents (Elt F)) shapeCasts_S64_S1x64 := by
  simp only [hostOps1_2]
  after_results
  rfl

end Stretch3

end Cert.KernelIdeal.Middle

end
-- ==== Proof.RefValue.lean ====
/-
  The reference's result, entry by entry.

  After its scatter-add the reference adds the bias (broadcast along the rows) and applies jax's log_softmax along each
  row: the row maximum from −∞ (taken once more against −∞, which changes nothing on the extended reals), the shifted
  row, the exponentials' sum from zero, its logarithm, the difference. Read one operation at a time this is, at
  entry (r, q), (z q − M) − log Σ_j exp (z j − M) with z j = agg(r, j) + b(j) and M the maximum of row r: the same
  expression the second kernel region evaluates.
-/
import proofs.«138163_j64372969832703_1_alg».proof.Proof.RefRead
import proofs.«138163_j64372969832703_1_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.ReadP Cert.Proof.Gcn
open Idealize.ShloMosaic Idealize.ShloMosaic.TcCoe Idealize.ShloMosaic.ValueIdx Idealize.SL.Sem

/-- −∞ is the bottom of the extended reals: a maximum against it changes nothing. -/
theorem max_negInf (y : EReal) : max (Ideal.ofBits .f32 0xFF800000#32) y = y := by
  simp [Ideal.ofBits, Ideal.ieee]

/-- The reduced index r with channel k put back is (r, k). -/
theorem lift_row (h : S100000x64.Reduces [1] S100000) (r : Fin 100000) (k : Fin (S100000x64.size 1)) :
    h.lift (ix1 r) k = ix2 r (⟨k.val, k.isLt⟩ : Fin 64) := by
  funext c; apply Fin.ext; fin_cases c <;> rfl

/-- The host's maximum-reduce of a [100000, 64] array over its channels, from −∞, at row r is that row's maximum. -/
theorem hostRowMax_apply (z : FVec Ideal S100000x64 .f32) (h' : S100000x64.ReducesTo [1] S100000) (hu : 0 < S_.numel) (r : Fin 100000) :
    Host.reduce FloatOps.maximumf z (constant (F := Ideal) S_ .f32 0xFF800000#32) h' hu (ix1 r)
      = rowMax (fun j => z (ix2 r j)) := by
  rw [Host.reduce_eq_fold_single FloatOps.maximumf z _ h' (by decide) hu]
  unfold rowMax
  have hf : (z ∘ (by decide : S100000x64.Reduces [1] S100000).lift (ix1 r)) = fun k : Fin 64 => z (ix2 r k) :=
    funext fun k => congrArg z (lift_row _ r k)
  exact congrArg (fun f => Finset.fold max (Ideal.ofBits .f32 0xFF800000#32) f (Finset.univ : Finset (Fin 64))) hf

attribute [local irreducible] val_main_v43 val_main_v46

variable (x0 : (⟨S100000x256, .f32⟩ : BufTy).Contents (Elt Ideal)) (x1 : (⟨S2x1600000, .i32⟩ : BufTy).Contents (Elt Ideal))
  (x2 : (⟨S256x64, .f32⟩ : BufTy).Contents (Elt Ideal)) (x3 : (⟨S64, .f32⟩ : BufTy).Contents (Elt Ideal))

/-- The biased aggregate at (r, j): the aggregate there plus the bias at channel j. -/
theorem biased_apply (r : Fin 100000) (j : Fin 64) :
    val_main_v46 (F := Ideal) x0 x1 x2 x3 (ix2 r j) = val_main_v43 (F := Ideal) x0 x1 x2 (ix2 r j) + x3 (ix1 j) := by
  rw [val_main_v46_apply, val_main_v45_apply, val_main_v44_apply]
  have e : idx_main_v44 (idx_main_v45 (ix2 r j)) = ix1 j := funext fun a => Fin.ext (by match a with | ⟨0, _⟩ => rfl)
  rw [e]
  exact Ideal.addf_def _ _

/-- The row maximum the reference subtracts, at row r. -/
theorem shift_apply (r : Fin 100000) :
    val_main_call1_v2 (F := Ideal) x0 x1 x2 x3 (ix1 r) = rowMax (fun j => val_main_v46 (F := Ideal) x0 x1 x2 x3 (ix2 r j)) := by
  rw [val_main_call1_v2_apply, val_main_call1_v1_apply, val_main_call1_cst_0_apply]
  unfold val_main_call1_v0 val_main_call1_cst
  rw [hostRowMax_apply]
  exact max_negInf _

/-- The shifted row at (r, j). -/
theorem shifted_apply (r : Fin 100000) (j : Fin 64) :
    val_main_call1_v5 (F := Ideal) x0 x1 x2 x3 (ix2 r j)
      = val_main_v46 (F := Ideal) x0 x1 x2 x3 (ix2 r j) - rowMax (fun k => val_main_v46 (F := Ideal) x0 x1 x2 x3 (ix2 r k)) := by
  rw [val_main_call1_v5_apply, val_main_call1_v4_apply, val_main_call1_v3_apply]
  have e : idx_main_call1_v3 (idx_main_call1_v4 (ix2 r j)) = ix1 r := funext fun a => Fin.ext (by match a with | ⟨0, _⟩ => rfl)
  rw [e, shift_apply]
  exact Ideal.subf_def _ _

/-- The sum of the shifted row's exponentials, at row r. -/
theorem expSum_apply (r : Fin 100000) :
    val_main_call1_v7 (F := Ideal) x0 x1 x2 x3 (ix1 r)
      = ∑ k : Fin 64, Ideal.exp (val_main_v46 (F := Ideal) x0 x1 x2 x3 (ix2 r k) - rowMax (fun j => val_main_v46 (F := Ideal) x0 x1 x2 x3 (ix2 r j))) := by
  rw [val_main_call1_v7_apply, val_main_call1_cst_1_apply]
  show Ideal.ofBits .f32 0x00000000#32 + _ = _
  rw [Ideal.ofBits_zero_f32, zero_add]
  refine Finset.sum_congr rfl fun k _ => ?_
  have e : idx_main_call1_v7 (ix1 r) k = ix2 r k := funext fun a => Fin.ext (by match a with | ⟨0, _⟩ => rfl | ⟨1, _⟩ => rfl)
  rw [e, val_main_call1_v6_apply, shifted_apply]
  exact Ideal.hostUnary_exp_def _

/-- The reference's result at (r, q): the log-softmax of row r of the biased aggregate, at channel q. -/
theorem result_apply (r : Fin 100000) (q : Fin 64) :
    val_main_v47 (F := Ideal) x0 x1 x2 x3 (ix2 r q)
      = logSoftmaxRow (fun j => val_main_v43 (F := Ideal) x0 x1 x2 (ix2 r j) + x3 (ix1 j)) q := by
  rw [val_main_v47_apply, val_main_call1_v10_apply, val_main_call1_v9_apply, val_main_call1_v8_apply]
  have e : idx_main_call1_v8 (idx_main_call1_v10 (ix2 r q)) = ix1 r := funext fun a => Fin.ext (by match a with | ⟨0, _⟩ => rfl)
  rw [e, expSum_apply, shifted_apply, Ideal.subf_def, Ideal.hostUnary_log_def]
  have hz : (fun j => val_main_v46 (F := Ideal) x0 x1 x2 x3 (ix2 r j)) = fun j => val_main_v43 (F := Ideal) x0 x1 x2 (ix2 r j) + x3 (ix1 j) :=
    funext fun j => biased_apply x0 x1 x2 x3 r j
  show logSoftmaxRow (fun j => val_main_v46 (F := Ideal) x0 x1 x2 x3 (ix2 r j)) q = _
  exact congrArg (fun z => logSoftmaxRow z q) hz

/-- The reference's result as an array: bias and log-softmax along the rows of its aggregate. -/
theorem result_eq :
    val_main_v47 (F := Ideal) x0 x1 x2 x3 = biasLogSoftmax (val_main_v43 (F := Ideal) x0 x1 x2) x3 := by
  funext i
  obtain ⟨r, q, rfl⟩ : ∃ (r : Fin 100000) (q : Fin 64), i = ix2 r q := ⟨i 0, i 1, eq_ix2 i⟩
  exact result_apply x0 x1 x2 x3 r q

/-- The reference's dense transform is x·W entry by entry. -/
theorem dense_eq : val_main_v30 (F := Ideal) x0 x2 = linArr x0 x2 := by
  funext i
  obtain ⟨r, q, rfl⟩ : ∃ (r : Fin 100000) (q : Fin 64), i = ix2 r q := ⟨i 0, i 1, eq_ix2 i⟩
  rw [val_main_v30_apply]
  show _ = ∑ k : Fin 256, x0 (ix2 r k) * x2 (ix2 k q)
  refine Finset.sum_congr rfl fun k _ => ?_
  have el : lidx_main_v30 (ix2 r q) k = ix2 r k := funext fun a => Fin.ext (by match a with | ⟨0, _⟩ => rfl | ⟨1, _⟩ => rfl)
  have er : ridx_main_v30 (ix2 r q) k = ix2 k q := funext fun a => Fin.ext (by match a with | ⟨0, _⟩ => rfl | ⟨1, _⟩ => rfl)
  rw [el, er]

end Cert.ReferenceIdeal.RefValue

end
-- ==== Proof.KernelValue.lean ====
/-
  The idealized kernel program's result array after the run.

  The run ends with the result array at what the second region's fifty write-backs leave: the rows' log-softmax of the
  two arrays that region read (agg + bias row). The bias row is the bias argument reshaped; agg is what the host
  operations between the regions leave, which is the reference's aggregate of the arguments because the first region's
  result, which they gather from, is the dense transform x·W — the reference's own `dot_general` entry by entry.
  So the result is bias-and-log-softmax of the reference's aggregate, as an array of the four arguments.
-/
import proofs.«138163_j64372969832703_1_alg».proof.Proof.RunNamed
import proofs.«138163_j64372969832703_1_alg».proof.Proof.LinRegion
import proofs.«138163_j64372969832703_1_alg».proof.Proof.SoftmaxRegion
import proofs.«138163_j64372969832703_1_alg».proof.Proof.Middle
import proofs.«138163_j64372969832703_1_alg».proof.Proof.RefValue

set_option maxRecDepth 16384

noncomputable section

namespace Cert.KernelIdeal.Value

open Cert.KernelIdeal Cert.KernelIdeal.Gen Cert.Proof.Gcn
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-- The four arguments as launched, at their array types. -/
abbrev argX (c : Dev nD) : (⟨S100000x256, .f32⟩ : BufTy).Contents (Elt Ideal) := m ((c.tc : Thread nD τ).loc main_arg0)
abbrev argE (c : Dev nD) : (⟨S2x1600000, .i32⟩ : BufTy).Contents (Elt Ideal) := m ((c.tc : Thread nD τ).loc main_arg1)
abbrev argW (c : Dev nD) : (⟨S256x64, .f32⟩ : BufTy).Contents (Elt Ideal) := m ((c.tc : Thread nD τ).loc main_arg2)
abbrev argB (c : Dev nD) : (⟨S64, .f32⟩ : BufTy).Contents (Elt Ideal) := m ((c.tc : Thread nD τ).loc main_arg3)

/-- What the result array ends holding. -/
def result (c : Dev nD) : Buf (Elt Ideal) ((c.tc : Thread nD τ).loc main_v45) :=
  rowsLogSoftmax (val_main_v43 (F := Ideal) (argX m c) (argE m c) (argW m c))
    (shapeCast S1x64 (argB m c) shapeCasts_S64_S1x64)

/-- The first region leaves the arguments the host operations read as launched. -/
theorem exit0_arg1 (c : Dev nD) : W1 m ρ c (Proc.devRef .tc main_arg1) = argE m c :=
  W1_of_ne m ρ c main_arg1 (by decide)
theorem exit0_arg3 (c : Dev nD) : W1 m ρ c (Proc.devRef .tc main_arg3) = argB m c :=
  W1_of_ne m ρ c main_arg3 (by decide)

/-- The first region's result is the reference's dense transform of the arguments. -/
theorem exit0_dense (c : Dev nD) : W1 m ρ c (Proc.devRef .tc main_v0) = val_main_v30 (F := Ideal) (argX m c) (argW m c) :=
  ((W1_arr m ρ c 2).trans (LinRegion.result_eq (V0 m ρ) c)).trans (Cert.ReferenceIdeal.RefValue.dense_eq (argX m c) (argW m c)).symm

/-- The second region is entered with the reference's aggregate of the arguments in the array it reads. -/
theorem entry1_agg (c : Dev nD) : V4 m ρ c main_v43 = val_main_v43 (F := Ideal) (argX m c) (argE m c) (argW m c) := by
  have hA1 := exit0_arg1 m ρ c
  have h4 : after Middle.whereOps (after hostOps1 (W1 m ρ c)) (Proc.devRef .tc main_v4) = val_main_v3 (F := Ideal) (argE m c) :=
    (Middle.keeps2_v4 _).trans ((Middle.sources (W1 m ρ c)).trans (congrArg (val_main_v3 (F := Ideal)) hA1))
  have h7 : after Middle.whereOps (after hostOps1 (W1 m ρ c)) (Proc.devRef .tc main_v7) = val_main_v6 (F := Ideal) (argE m c) :=
    (Middle.keeps2_v7 _).trans ((Middle.targets (W1 m ρ c)).trans (congrArg (val_main_v6 (F := Ideal)) hA1))
  have h15 : after Middle.whereOps (after hostOps1 (W1 m ρ c)) (Proc.devRef .tc main_v15) = val_main_v14 (F := Ideal) (argE m c) :=
    Middle.degreeInvSqrt _ _ ((Middle.degreePositive (W1 m ρ c)).trans (congrArg (val_main_v12 (F := Ideal)) hA1))
      ((Middle.degreeRsqrt (W1 m ρ c)).trans (congrArg (val_main_v13 (F := Ideal)) hA1)) (Middle.whereZero (W1 m ρ c))
  have h0 : after Middle.whereOps (after hostOps1 (W1 m ρ c)) (Proc.devRef .tc main_v0) = val_main_v30 (F := Ideal) (argX m c) (argW m c) :=
    (Middle.keeps2_v0 _).trans ((Middle.keeps1_v0 (W1 m ρ c)).trans (exit0_dense m ρ c))
  exact Middle.aggregated (after Middle.whereOps (after hostOps1 (W1 m ρ c))) (argX m c) (argE m c) (argW m c) h4 h7 h15 h0

/-- … and with the bias, reshaped to a row, in the other. -/
theorem entry1_bias (c : Dev nD) : V4 m ρ c main_v44 = shapeCast S1x64 (argB m c) shapeCasts_S64_S1x64 := by
  have h3 : after Middle.whereOps (after hostOps1 (W1 m ρ c)) (Proc.devRef .tc main_arg3) = argB m c :=
    (Middle.keeps2_arg3 _).trans ((Middle.keeps1_arg3 (W1 m ρ c)).trans (exit0_arg3 m ρ c))
  exact (Middle.biasRow (after Middle.whereOps (after hostOps1 (W1 m ρ c)))).trans (congrArg (fun b => shapeCast S1x64 b shapeCasts_S64_S1x64) h3)

/-- The result array at the last boundary is `result`. -/
theorem exit1_result (c : Dev nD) : W5 m ρ c (Proc.devRef .tc main_v45) = result m c := by
  refine ((W5_arr m ρ c 2).trans (SoftmaxRegion.result_eq (V4 m ρ) c)).trans ?_
  show rowsLogSoftmax (V4 m ρ c main_v43) (V4 m ρ c main_v44) = _
  rw [entry1_agg, entry1_bias]
  rfl

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (exit1_result m ρ c), (h c).2⟩) (RunNamed.run_named m ρ)

end Cert.KernelIdeal.Value

end
-- ==== Proof.LibTypedOps.lean ====
/-
  A host operation written over TYPED references (a buffer together with the equation "its type is T") is the same
  operation written over the buffers themselves: the typed form only transports the operation's values along those
  equations, and when an equation is `rfl` the transport is the identity. Stated for the four arities a straight-line
  callee uses; with them a list of typed operations is rewritten, operation by operation, to the plain list, whose
  results can then be read without any transport in the way.
-/
import Idealize.ShloMosaic.Lib.StableHlo

noncomputable section

namespace Idealize.ShloMosaic.StableHlo.TRef

open Idealize.ShloMosaic Idealize.ShloMosaic.StableHlo

variable {τ : Topo} {sig : RefSig} {Val : EltTy → Type}

/-- A typed reference whose type equation is `rfl`. -/
abbrev plain (r : Ref sig .tc) (hd : r.space ≠ .host) (hu : r.isScoped = false) : TRef sig r.ty := ⟨r, rfl, hd, hu⟩

theorem nullary_plain (y : Ref sig .tc) (hd hu) (v : y.ty.Contents Val) :
    TRef.nullary (τ := τ) (plain y hd hu) v = StableHlo.nullary y v (plain y hd hu).dev := rfl

theorem unary_plain (x y : Ref sig .tc) (hdx hux hdy huy) (f : x.ty.Contents Val → y.ty.Contents Val) :
    TRef.unary (τ := τ) (plain x hdx hux) (plain y hdy huy) f
      = StableHlo.unary x y f (plain x hdx hux).dev (plain y hdy huy).dev := rfl

theorem binary_plain (a b y : Ref sig .tc) (hda hua hdb hub hdy huy)
    (f : a.ty.Contents Val → b.ty.Contents Val → y.ty.Contents Val) :
    TRef.binary (τ := τ) (plain a hda hua) (plain b hdb hub) (plain y hdy huy) f
      = StableHlo.binary a b y f (plain a hda hua).dev (plain b hdb hub).dev (plain y hdy huy).dev := rfl

theorem ternary_plain (c a b y : Ref sig .tc) (hdc huc hda hua hdb hub hdy huy)
    (f : c.ty.Contents Val → a.ty.Contents Val → b.ty.Contents Val → y.ty.Contents Val) :
    TRef.ternary (τ := τ) (plain c hdc huc) (plain a hda hua) (plain b hdb hub) (plain y hdy huy) f
      = StableHlo.ternary c a b y f (plain c hdc huc).dev (plain a hda hua).dev (plain b hdb hub).dev (plain y hdy huy).dev := rfl

end Idealize.ShloMosaic.StableHlo.TRef

end
-- ==== Proof.RefStages.lean ====
/-
  The reference's operations run stretch by stretch.

  The reference's 75 host operations are read in four stretches: the edge list's sources, targets, in-degrees and the
  in-degrees' inverse square roots with the comparison that guards them (18 operations); the three operations of the
  inlined `where`; the normalisation, the dense transform, the gather, the scaling and the scatter-add (36 operations);
  the bias and the fifteen operations of the inlined log_softmax (18 operations). Each stretch's results are the
  stage functions of the arguments (the read-at-an-index module's `val_…`), for any contents the stretch starts from,
  the earlier stretches' results entering as hypotheses; the two inlined calls' operations, printed over typed references, are first rewritten to
  the same operations over the buffers themselves (every type equation is `rfl`).
-/
import proofs.«138163_j64372969832703_1_alg».proof.Proof.RefRun
import proofs.«138163_j64372969832703_1_alg».proof.Proof.RefRead
import Idealize.ShloMosaic.Lib.StableHlo.Run
import Idealize.ShloMosaic.Lib.Pipeline.Frame
import proofs.«138163_j64372969832703_1_alg».proof.Proof.LibTypedOps

set_option maxRecDepth 16384

noncomputable section

namespace Cert.ReferenceIdeal.Stages

open Cert.ReferenceIdeal Cert.ReferenceIdeal.Gen
open Idealize.ShloMosaic Idealize.ShloMosaic.TcCoe Idealize.SL.Sem Idealize.ShloMosaic.StableHlo
open Cert.ReferenceIdeal.ReadP

variable {F : FTy → Type} [FloatOps F]

/-- The edge list's sources and targets, the in-degrees, their inverse square roots and the comparison guarding them. -/
abbrev ops1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The three operations of the inlined `where`, over typed references as the program prints them. -/
abbrev ops2t : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
/-- The same three operations over the buffers themselves. -/
abbrev ops2 : List (HloOp τ sig (Elt F)) :=
  [ unary main_cst_2 main_call0_v0 ((id) : (⟨S_, .f32⟩ : BufTy).Contents (Elt F) → (⟨S_, .f32⟩ : BufTy).Contents (Elt F)),
    unary main_call0_v0 main_call0_v1 (((broadcastInDim S100000 ![] bcast_S_S100000)) : (⟨S_, .f32⟩ : BufTy).Contents (Elt F) → (⟨S100000, .f32⟩ : BufTy).Contents (Elt F)),
    ternary main_v12 main_v13 main_call0_v1 main_v14 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The normalisation, the dense transform, the gather by source, the scaling and the scatter-add by target. -/
abbrev ops3 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The bias, and the fifteen operations of the inlined log_softmax over typed references as the program prints them. -/
abbrev ops4t : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v46) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v46) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v47) subf ]
/-- The same eighteen operations over the buffers themselves. -/
abbrev ops4 : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0xFF800000#32) : (⟨S_, .f32⟩ : BufTy).Contents (Elt F)),
    binary main_v46 main_call1_cst main_call1_v0 (((fun x v => Host.reduce FloatOps.maximumf x v reducesTo_S100000x64_S100000_d1 h_S_)) : (⟨S100000x64, .f32⟩ : BufTy).Contents (Elt F) → (⟨S_, .f32⟩ : BufTy).Contents (Elt F) → (⟨S100000, .f32⟩ : BufTy).Contents (Elt F)),
    nullary main_call1_cst_0 ((constant S_ .f32 0xFF800000#32) : (⟨S_, .f32⟩ : BufTy).Contents (Elt F)),
    unary main_call1_cst_0 main_call1_v1 (((broadcastInDim S100000 ![] bcast_S_S100000)) : (⟨S_, .f32⟩ : BufTy).Contents (Elt F) → (⟨S100000, .f32⟩ : BufTy).Contents (Elt F)),
    binary main_call1_v1 main_call1_v0 main_call1_v2 ((maximumf) : (⟨S100000, .f32⟩ : BufTy).Contents (Elt F) → (⟨S100000, .f32⟩ : BufTy).Contents (Elt F) → (⟨S100000, .f32⟩ : BufTy).Contents (Elt F)),
    unary main_call1_v2 main_call1_v3 (((broadcastInDim S100000x1 ![0] bcast_S100000_S100000x1_0)) : (⟨S100000, .f32⟩ : BufTy).Contents (Elt F) → (⟨S100000x1, .f32⟩ : BufTy).Contents (Elt F)),
    unary main_call1_v3 main_call1_v4 (((broadcastInDim S100000x64 ![0, 1] bcast_S100000x1_S100000x64_0_1)) : (⟨S100000x1, .f32⟩ : BufTy).Contents (Elt F) → (⟨S100000x64, .f32⟩ : BufTy).Contents (Elt F)),
    binary main_v46 main_call1_v4 main_call1_v5 ((subf) : (⟨S100000x64, .f32⟩ : BufTy).Contents (Elt F) → (⟨S100000x64, .f32⟩ : BufTy).Contents (Elt F) → (⟨S100000x64, .f32⟩ : BufTy).Contents (Elt F)),
    unary main_call1_v5 main_call1_v6 ((Host.exp) : (⟨S100000x64, .f32⟩ : BufTy).Contents (Elt F) → (⟨S100000x64, .f32⟩ : BufTy).Contents (Elt F)),
    nullary main_call1_cst_1 ((constant S_ .f32 0x00000000#32) : (⟨S_, .f32⟩ : BufTy).Contents (Elt F)),
    binary main_call1_v6 main_call1_cst_1 main_call1_v7 (((fun x v => Host.reduceAdd x v reducesTo_S100000x64_S100000_d1 h_S_)) : (⟨S100000x64, .f32⟩ : BufTy).Contents (Elt F) → (⟨S_, .f32⟩ : BufTy).Contents (Elt F) → (⟨S100000, .f32⟩ : BufTy).Contents (Elt F)),
    unary main_call1_v7 main_call1_v8 (((broadcastInDim S100000x1 ![0] bcast_S100000_S100000x1_0)) : (⟨S100000, .f32⟩ : BufTy).Contents (Elt F) → (⟨S100000x1, .f32⟩ : BufTy).Contents (Elt F)),
    unary main_call1_v8 main_call1_v9 ((Host.log) : (⟨S100000x1, .f32⟩ : BufTy).Contents (Elt F) → (⟨S100000x1, .f32⟩ : BufTy).Contents (Elt F)),
    unary main_call1_v9 main_call1_v10 (((broadcastInDim S100000x64 ![0, 1] bcast_S100000x1_S100000x64_0_1)) : (⟨S100000x1, .f32⟩ : BufTy).Contents (Elt F) → (⟨S100000x64, .f32⟩ : BufTy).Contents (Elt F)),
    binary main_call1_v5 main_call1_v10 main_v47 ((subf) : (⟨S100000x64, .f32⟩ : BufTy).Contents (Elt F) → (⟨S100000x64, .f32⟩ : BufTy).Contents (Elt F) → (⟨S100000x64, .f32⟩ : BufTy).Contents (Elt F)) ]

/-- An operation over typed references whose type equations are `rfl` is the operation over the buffers: one by one. -/
theorem ops2_eq : (ops2t : List (HloOp τ sig (Elt F))) = ops2 :=
  (congrArg₂ List.cons (TRef.unary_plain main_cst_2 main_call0_v0 _ _ _ _ _) (congrArg₂ List.cons (TRef.unary_plain main_call0_v0 main_call0_v1 _ _ _ _ _) (congrArg₂ List.cons (TRef.ternary_plain main_v12 main_v13 main_call0_v1 main_v14 _ _ _ _ _ _ _ _ _) rfl)))
theorem ops4_eq : (ops4t : List (HloOp τ sig (Elt F))) = ops4 :=
  (congrArg₂ List.cons rfl (congrArg₂ List.cons rfl (congrArg₂ List.cons rfl (congrArg₂ List.cons (TRef.nullary_plain main_call1_cst _ _ _) (congrArg₂ List.cons (TRef.binary_plain main_v46 main_call1_cst main_call1_v0 _ _ _ _ _ _ _) (congrArg₂ List.cons (TRef.nullary_plain main_call1_cst_0 _ _ _) (congrArg₂ List.cons (TRef.unary_plain main_call1_cst_0 main_call1_v1 _ _ _ _ _) (congrArg₂ List.cons (TRef.binary_plain main_call1_v1 main_call1_v0 main_call1_v2 _ _ _ _ _ _ _) (congrArg₂ List.cons (TRef.unary_plain main_call1_v2 main_call1_v3 _ _ _ _ _) (congrArg₂ List.cons (TRef.unary_plain main_call1_v3 main_call1_v4 _ _ _ _ _) (congrArg₂ List.cons (TRef.binary_plain main_v46 main_call1_v4 main_call1_v5 _ _ _ _ _ _ _) (congrArg₂ List.cons (TRef.unary_plain main_call1_v5 main_call1_v6 _ _ _ _ _) (congrArg₂ List.cons (TRef.nullary_plain main_call1_cst_1 _ _ _) (congrArg₂ List.cons (TRef.binary_plain main_call1_v6 main_call1_cst_1 main_call1_v7 _ _ _ _ _ _ _) (congrArg₂ List.cons (TRef.unary_plain main_call1_v7 main_call1_v8 _ _ _ _ _) (congrArg₂ List.cons (TRef.unary_plain main_call1_v8 main_call1_v9 _ _ _ _ _) (congrArg₂ List.cons (TRef.unary_plain main_call1_v9 main_call1_v10 _ _ _ _ _) (congrArg₂ List.cons (TRef.binary_plain main_call1_v5 main_call1_v10 main_v47 _ _ _ _ _ _ _) rfl))))))))))))))))))

/-- The reference's operation list is the four stretches in order. -/
theorem ops_eq : (Cert.ReferenceIdeal.ValueP.ops : List (HloOp τ sig (Elt F))) = ops1 ++ (ops2 ++ (ops3 ++ ops4)) :=
  Eq.trans (rfl : (Cert.ReferenceIdeal.ValueP.ops : List (HloOp τ sig (Elt F))) = ops1 ++ (ops2t ++ (ops3 ++ ops4t)))
    (congrArg₂ (fun a b => ops1 ++ (a ++ (ops3 ++ b))) ops2_eq ops4_eq)

section Stretch1
variable (A : Valuation τ sig (Elt F))

theorem sources : after ops1 A (Proc.devRef .tc main_v3) = val_main_v3 (F := F) (A (Proc.devRef .tc main_arg1)) := by
  simp only [ops1]
  after_results
  rfl
theorem targets : after ops1 A (Proc.devRef .tc main_v6) = val_main_v6 (F := F) (A (Proc.devRef .tc main_arg1)) := by
  simp only [ops1]
  after_results
  rfl
theorem degreePositive : after ops1 A (Proc.devRef .tc main_v12) = val_main_v12 (F := F) (A (Proc.devRef .tc main_arg1)) := by
  simp only [ops1]
  after_results
  rfl
theorem degreeRsqrt : after ops1 A (Proc.devRef .tc main_v13) = val_main_v13 (F := F) (A (Proc.devRef .tc main_arg1)) := by
  simp only [ops1]
  after_results
  rfl
theorem whereZero : after ops1 A (Proc.devRef .tc main_cst_2) = val_main_cst_2 (F := F) := by
  simp only [ops1]
  after_results
  rfl
/-- The first stretch writes no argument. -/
theorem keeps1_arg0 : after ops1 A (Proc.devRef .tc main_arg0) = A (Proc.devRef .tc main_arg0) := by
  simp only [ops1]
  after_results
theorem keeps1_arg1 : after ops1 A (Proc.devRef .tc main_arg1) = A (Proc.devRef .tc main_arg1) := by
  simp only [ops1]
  after_results
theorem keeps1_arg2 : after ops1 A (Proc.devRef .tc main_arg2) = A (Proc.devRef .tc main_arg2) := by
  simp only [ops1]
  after_results
theorem keeps1_arg3 : after ops1 A (Proc.devRef .tc main_arg3) = A (Proc.devRef .tc main_arg3) := by
  simp only [ops1]
  after_results

end Stretch1

section Stretch2
variable (B : Valuation τ sig (Elt F)) (e : (⟨S2x1600000, .i32⟩ : BufTy).Contents (Elt F))

theorem degreeInvSqrt (h12 : B (Proc.devRef .tc main_v12) = val_main_v12 (F := F) e)
    (h13 : B (Proc.devRef .tc main_v13) = val_main_v13 (F := F) e) (hz : B (Proc.devRef .tc main_cst_2) = val_main_cst_2 (F := F)) :
    after ops2 B (Proc.devRef .tc main_v14) = val_main_v14 (F := F) e := by
  simp only [ops2]
  after_results
  rw [h12, h13, hz]
  rfl
/-- The `where` writes only its own three buffers. -/
theorem keeps2_v3 : after ops2 B (Proc.devRef .tc main_v3) = B (Proc.devRef .tc main_v3) := by
  simp only [ops2]
  after_results_simp
theorem keeps2_v6 : after ops2 B (Proc.devRef .tc main_v6) = B (Proc.devRef .tc main_v6) := by
  simp only [ops2]
  after_results_simp
theorem keeps2_arg0 : after ops2 B (Proc.devRef .tc main_arg0) = B (Proc.devRef .tc main_arg0) := by
  simp only [ops2]
  after_results_simp
theorem keeps2_arg2 : after ops2 B (Proc.devRef .tc main_arg2) = B (Proc.devRef .tc main_arg2) := by
  simp only [ops2]
  after_results_simp
theorem keeps2_arg3 : after ops2 B (Proc.devRef .tc main_arg3) = B (Proc.devRef .tc main_arg3) := by
  simp only [ops2]
  after_results_simp

end Stretch2

section Stretch3
variable (C : Valuation τ sig (Elt F)) (x1 : (⟨S2x1600000, .i32⟩ : BufTy).Contents (Elt F))

set_option maxHeartbeats 4000000 in
theorem aggregated (h3 : C (Proc.devRef .tc main_v3) = val_main_v3 (F := F) x1) (h6 : C (Proc.devRef .tc main_v6) = val_main_v6 (F := F) x1)
    (h14 : C (Proc.devRef .tc main_v14) = val_main_v14 (F := F) x1) :
    after ops3 C (Proc.devRef .tc main_v43) = val_main_v43 (F := F) (C (Proc.devRef .tc main_arg0)) x1 (C (Proc.devRef .tc main_arg2)) := by
  simp only [ops3]
  after_results_simp
  rw [h3, h6, h14]
  rfl
theorem keeps3_arg3 : after ops3 C (Proc.devRef .tc main_arg3) = C (Proc.devRef .tc main_arg3) := by
  simp only [ops3]
  after_results_simp

end Stretch3

section Stretch4
variable (D : Valuation τ sig (Elt F)) (x0 : (⟨S100000x256, .f32⟩ : BufTy).Contents (Elt F))
  (x1 : (⟨S2x1600000, .i32⟩ : BufTy).Contents (Elt F)) (x2 : (⟨S256x64, .f32⟩ : BufTy).Contents (Elt F))

set_option maxHeartbeats 4000000 in
theorem result (h43 : D (Proc.devRef .tc main_v43) = val_main_v43 (F := F) x0 x1 x2) :
    after ops4 D (Proc.devRef .tc main_v47) = val_main_v47 (F := F) x0 x1 x2 (D (Proc.devRef .tc main_arg3)) := by
  simp only [ops4]
  after_results_simp
  rw [h43]
  rfl

end Stretch4

/-- The reference's result buffer after all 75 operations, from any contents: the last stage function of the four
    arguments as the contents hold them. -/
theorem after_ops_result (V : Valuation τ sig (Elt F)) :
    after (Cert.ReferenceIdeal.ValueP.ops (F := F)) V (Proc.devRef .tc main_v47)
      = val_main_v47 (F := F) (V (Proc.devRef .tc main_arg0)) (V (Proc.devRef .tc main_arg1)) (V (Proc.devRef .tc main_arg2)) (V (Proc.devRef .tc main_arg3)) := by
  rw [ops_eq, StableHlo.after_append, StableHlo.after_append, StableHlo.after_append]
  have hB3 : after ops2 (after ops1 V) (Proc.devRef .tc main_v3) = val_main_v3 (F := F) (V (Proc.devRef .tc main_arg1)) :=
    (keeps2_v3 _).trans (sources V)
  have hB6 : after ops2 (after ops1 V) (Proc.devRef .tc main_v6) = val_main_v6 (F := F) (V (Proc.devRef .tc main_arg1)) :=
    (keeps2_v6 _).trans (targets V)
  have hB14 : after ops2 (after ops1 V) (Proc.devRef .tc main_v14) = val_main_v14 (F := F) (V (Proc.devRef .tc main_arg1)) :=
    degreeInvSqrt _ _ (degreePositive V) (degreeRsqrt V) (whereZero V)
  have h0 : after ops2 (after ops1 V) (Proc.devRef .tc main_arg0) = V (Proc.devRef .tc main_arg0) := (keeps2_arg0 _).trans (keeps1_arg0 V)
  have h2 : after ops2 (after ops1 V) (Proc.devRef .tc main_arg2) = V (Proc.devRef .tc main_arg2) := (keeps2_arg2 _).trans (keeps1_arg2 V)
  have h3 : after ops3 (after ops2 (after ops1 V)) (Proc.devRef .tc main_arg3) = V (Proc.devRef .tc main_arg3) :=
    (keeps3_arg3 _).trans ((keeps2_arg3 _).trans (keeps1_arg3 V))
  have h43 := aggregated (after ops2 (after ops1 V)) _ hB3 hB6 hB14
  rw [h0, h2] at h43
  rw [result _ _ _ _ h43, h3]

section Arguments
variable (V : Valuation τ sig (Elt F))

/-- No operation writes an argument: each ends at the contents it started from. -/
theorem after_ops_arg0 : after (Cert.ReferenceIdeal.ValueP.ops (F := F)) V (Proc.devRef .tc main_arg0) = V (Proc.devRef .tc main_arg0) := by
  rw [ops_eq]
  simp only [ops1, ops2, ops3, ops4, List.cons_append, List.nil_append]
  after_results_simp
theorem after_ops_arg1 : after (Cert.ReferenceIdeal.ValueP.ops (F := F)) V (Proc.devRef .tc main_arg1) = V (Proc.devRef .tc main_arg1) := by
  rw [ops_eq]
  simp only [ops1, ops2, ops3, ops4, List.cons_append, List.nil_append]
  after_results_simp
theorem after_ops_arg2 : after (Cert.ReferenceIdeal.ValueP.ops (F := F)) V (Proc.devRef .tc main_arg2) = V (Proc.devRef .tc main_arg2) := by
  rw [ops_eq]
  simp only [ops1, ops2, ops3, ops4, List.cons_append, List.nil_append]
  after_results_simp
theorem after_ops_arg3 : after (Cert.ReferenceIdeal.ValueP.ops (F := F)) V (Proc.devRef .tc main_arg3) = V (Proc.devRef .tc main_arg3) := by
  rw [ops_eq]
  simp only [ops1, ops2, ops3, ops4, List.cons_append, List.nil_append]
  after_results_simp

end Arguments

end Cert.ReferenceIdeal.Stages

end
-- ==== Proof.lean ====
/-
  A graph convolution followed by a row-wise log-softmax, computed two ways.

  The kernel program forms h = x·W in a first Pallas region (fifty row blocks; the product's operands pass through a
  narrower float format, which is the identity on the extended reals), normalises and aggregates the rows of h over the
  edges with host operations, and adds the bias and takes the log-softmax of every row in a second Pallas region. The
  reference forms h = x·W with one `dot_general`, applies the same host operations, adds the bias and calls jax's
  log_softmax. On the extended reals the two dense transforms are the same sums, the host operations between are the
  same operations, and both log-softmaxes are (z − M) − log Σ exp (z − M) with M the row's maximum from −∞: the two
  results are one array of the four arguments. No finiteness of the inputs is used.

  The frames of the two kernel programs are the generated ones; the reference's frame is its run with the result
  dropped; the ideal pass rewrote nothing, so `preserves` is trivial.
-/
import proofs.«138163_j64372969832703_1_alg».proof.Defs
import proofs.«138163_j64372969832703_1_alg».proof.Proof.Gen.Kernel
import proofs.«138163_j64372969832703_1_alg».proof.Proof.Gen.Kernel.Skeleton
import proofs.«138163_j64372969832703_1_alg».proof.Proof.Gen.Kernel.Launch
import proofs.«138163_j64372969832703_1_alg».proof.Proof.Gen.Kernel.Points
import proofs.«138163_j64372969832703_1_alg».proof.Proof.Gen.Kernel.Frame
import proofs.«138163_j64372969832703_1_alg».proof.Proof.Gen.KernelIdeal
import proofs.«138163_j64372969832703_1_alg».proof.Proof.Gen.KernelIdeal.Skeleton
import proofs.«138163_j64372969832703_1_alg».proof.Proof.Gen.KernelIdeal.Launch
import proofs.«138163_j64372969832703_1_alg».proof.Proof.Gen.KernelIdeal.Points
import proofs.«138163_j64372969832703_1_alg».proof.Proof.Gen.KernelIdeal.Frame
import proofs.«138163_j64372969832703_1_alg».proof.Proof.Gen.ReferenceIdeal
import proofs.«138163_j64372969832703_1_alg».proof.Proof.Gen.Pre_finite_inputs
import proofs.«138163_j64372969832703_1_alg».proof.Proof.KernelValue
import proofs.«138163_j64372969832703_1_alg».proof.Proof.RefStages
import proofs.«138163_j64372969832703_1_alg».proof.Proof.RefValue
import Idealize.ShloMosaic.Lib.ValueLayout
import Idealize.ShloMosaic.Adequacy
import Idealize.ShloMosaic.Init

set_option maxRecDepth 16384

noncomputable section

namespace Cert.Proof

open Idealize.ShloMosaic Idealize.ShloMosaic.ValueIdx Idealize.SL.Sem Idealize.ShloMosaic.StableHlo Cert.Proof.Gcn

/-- The bias reshaped to a [1, 64] row and read at (0, j) is the bias at j: the kernel's way of adding the bias is the
    reference's. -/
theorem rows_eq_bias (agg : (⟨2, ![100000, 64]⟩ : Shape).Idx → EReal) (b : (⟨1, ![64]⟩ : Shape).Idx → EReal)
    (h : (⟨1, ![64]⟩ : Shape).ShapeCasts ⟨2, ![1, 64]⟩) :
    rowsLogSoftmax agg (shapeCast ⟨2, ![1, 64]⟩ b h) = biasLogSoftmax agg b := by
  funext i
  unfold rowsLogSoftmax biasLogSoftmax
  refine congrArg (fun z => logSoftmaxRow z (i 1)) (funext fun j => ?_)
  rw [shapeCast_a_1a_apply]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun r h c =>
      ⟨(h c _).trans (Cert.ReferenceIdeal.Stages.after_ops_arg0 _), (h c _).trans (Cert.ReferenceIdeal.Stages.after_ops_arg1 _),
       (h c _).trans (Cert.ReferenceIdeal.Stages.after_ops_arg2 _), (h c _).trans (Cert.ReferenceIdeal.Stages.after_ops_arg3 _)⟩)
    (Cert.ReferenceIdeal.ValueP.run_after (F := Ideal) m ρ)

/-- Both programs end with the result array at bias-and-log-softmax of the same aggregate of the arguments. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun r h c => ?_) (Cert.ReferenceIdeal.ValueP.run_after (F := Ideal) m' ρ')
  refine ⟨(h c _).trans ?_, (h c _).trans (Cert.ReferenceIdeal.Stages.after_ops_arg0 _), (h c _).trans (Cert.ReferenceIdeal.Stages.after_ops_arg1 _),
    (h c _).trans (Cert.ReferenceIdeal.Stages.after_ops_arg2 _), (h c _).trans (Cert.ReferenceIdeal.Stages.after_ops_arg3 _)⟩
  obtain ⟨e0, e1, e2, e3⟩ := hagree c
  refine (Cert.ReferenceIdeal.Stages.after_ops_result _).trans ?_
  show Cert.ReferenceIdeal.ReadP.val_main_v47 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [e0, e1, e2, e3, Cert.ReferenceIdeal.RefValue.result_eq]
  exact (rows_eq_bias _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
